-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : IVec S4096x4096 32) (main_arg2 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S2x2048x4096 : Shape := ⟨3, ![2, 2048, 4096]⟩
abbrev S4096x4096 : Shape := ⟨2, ![4096, 4096]⟩
abbrev S4096 : Shape := ⟨1, ![4096]⟩
abbrev S1024x512 : Shape := ⟨2, ![1024, 512]⟩
abbrev S1024 : Shape := ⟨1, ![1024]⟩
abbrev S1024x1024 : Shape := ⟨2, ![1024, 1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S2x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x2048x4096_S4096x4096 : S2x2048x4096.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x512 : S1024x1.Broadcasts S1024x512
  shapeCasts_S4096x4096_S2x2048x4096 : S4096x4096.ShapeCasts S2x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096, .f32⟩
  | .hbm, ⟨3, _⟩ => ⟨S4096x4096, .f32⟩
  | .hbm, ⟨4, _⟩ => ⟨S4096x1, .f32⟩
  | .hbm, ⟨5, _⟩ => ⟨S4096x4096, .f32⟩
  | .hbm, ⟨6, _⟩ => ⟨S4096x4096, .f32⟩
  | .hbm, ⟨7, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Cases.lean ====
/-
  What one run of the kernel body leaves behind, in each of its three control cases.

  The body keeps a 1024 × 1024 accumulator between grid points. Along the last grid axis (eight steps) it
    * at the first step stores the zero block into the accumulator, then adds the step's product to it;
    * at the steps in between adds the step's product to what the accumulator held;
    * at the last step does the same and then copies the accumulator into the output block.
  So in every case the accumulator ends at the update applied to what it held before (the zero block at the first step),
  and at the last step the output block ends equal to the accumulator. Each statement holds for any reading of the floats.
-/
import proofs.«163339_j489626271767_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem Idealize.ShloMosaic.Tactic

variable {F : FTy → Type} [FloatOps F]

theorem off2 : (![0, 0] : Fin 2 → Nat) = fun _ => 0 := funext fun a => by fin_cases a <;> rfl
theorem off1 : (![0] : Fin 1 → Nat) = fun _ => 0 := funext fun a => by fin_cases a <;> rfl

/-- First step of a run of eight: the accumulator ends at the update applied to the zero block. -/
theorem acc_first (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S1024x512 .i32) (x2 : Vec F S1024 .f32) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) off2, View.readCov_unit_zero (S := S1024x1024) _ off2]
  simp only [View.readAt_eq_ld, harg3.read_unread, harg4.read_unread, harg5.read_unread, harg7.read_unread,
    View.ld_unit_zero (S := S1024x512) off2, View.ld_unit_zero (S := S1024x1024) off2, View.ld_unit_zero (S := S1024) off1]

/-- A step in between: the accumulator ends at the update applied to what it held. -/
theorem acc_middle (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S1024x512 .i32) (x2 : Vec F S1024 .f32) (xs0 : Vec F S1024x1024 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero off2]
  simp only [View.readAt_eq_ld, harg3.read_unread, harg4.read_unread, harg5.read_unread, harg7.read_unread,
    View.ld_unit_zero (S := S1024x512) off2, View.ld_unit_zero (S := S1024x1024) off2, View.ld_unit_zero (S := S1024) off1]

/-- Last step: the accumulator ends at the update applied to what it held, -/
theorem acc_last (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .i32) (x2 : Vec F S1024 .f32) (xs0 : Vec F S1024x1024 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero off2]
  simp only [View.readAt_eq_ld, harg3.read_unread, harg4.read_unread, harg5.read_unread, harg7.read_unread,
    View.ld_unit_zero (S := S1024x512) off2, View.ld_unit_zero (S := S1024x1024) off2, View.ld_unit_zero (S := S1024) off1]

/-- and the output block ends at the same value: the body copies the updated accumulator into it. -/
theorem out_last (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .i32) (x2 : Vec F S1024 .f32) (xs0 : Vec F S1024x1024 .f32) :
    out0_C_3 c i arg3 harg3 arg4 harg4 arg5 harg5 arg6 harg6 arg7 harg7 hc0 hc1 x0 x1 x2 xs0 = k0_pay2 x0 x1 x2 xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero off2]
  simp only [View.readAt_eq_ld, harg3.read_unread, harg4.read_unread, harg5.read_unread, harg7.read_unread,
    View.ld_unit_zero (S := S1024x512) off2, View.ld_unit_zero (S := S1024x1024) off2, View.ld_unit_zero (S := S1024) off1,
    View.readCov_unit_zero (S := S1024x1024) _ off2]

end Cert.KernelIdeal.Cases

end
-- ==== Proof.Payload.lean ====
/-
  What one run of the kernel body adds to the accumulator, entry by entry, over the extended reals.

  The body loads a 1024 × 512 block `a` of the left factor, a 1024 × 512 block `w` of integer weights and 1024 per-row
  scales `s`. It converts the weights to reals, multiplies row `q` of them by `s q`, and contracts the result with `a`
  along the shared axis of length 512: entry (p, q) of the product is the sum over j of a (p, j) · (w (q, j) · s q). The
  changes of float format in between are the identity on the extended reals. The product is added to what the
  accumulator held. The reset stores the zero block.
-/
import proofs.«163339_j489626271767_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## The coordinates at which the contraction reads its two factors -/

/-- The left factor's row is the result's row. -/
theorem lhs_row (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl

/-- The left factor's column is the contraction position. -/
theorem lhs_col (i : S1024x1024.Idx) (k : dot_S1024x512_S1024x512_S1024x1024_1_1_0_0_n_n.contr.Idx) :
    (dot_S1024x512_S1024x512_S1024x1024_1_1_0_0_n_n.lhsIdx i k 1).val = (k ⟨0, by decide⟩).val :=
  dot_S1024x512_S1024x512_S1024x1024_1_1_0_0_n_n.lhsIdx_val_of_single rfl i k

/-- The right factor's row is the result's column: the right factor enters transposed. -/
theorem rhs_row (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- The right factor's column is the contraction position. -/
theorem rhs_col (i : S1024x1024.Idx) (k : dot_S1024x512_S1024x512_S1024x1024_1_1_0_0_n_n.contr.Idx) :
    (dot_S1024x512_S1024x512_S1024x1024_1_1_0_0_n_n.rhsIdx i k 1).val = (k ⟨0, by decide⟩).val :=
  dot_S1024x512_S1024x512_S1024x1024_1_1_0_0_n_n.rhsIdx_val_of_single rfl i k

/-- The product of a 1024 × 512 array with the transpose of another, accumulated into the zero block, at entry
    (p, q): the sum over j of A (p, j) · B (q, j). -/
theorem matmul_nt_apply (A B : FVec Ideal S1024x512 .bf16) (p q : Fin 1024) :
    matmul dot_S1024x512_S1024x512_S1024x1024_1_1_0_0_n_n none A B (constant S1024x1024 .f32 0x00000000#32) (ix2 p q)
      = ∑ j : Fin 512, A (ix2 p j) * B (ix2 q j) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_row _ _
    | ⟨1, _⟩ => exact (lhs_col _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_row _ _
    | ⟨1, _⟩ => exact (rhs_col _ _).trans hk)
  rw [el, er]

/-! ## The per-row scale spread along a row -/

/-- A vector of 1024 scales, stood up as a column and repeated along each row of a 1024 × 512 array, read at
    (q, j), is scale q. -/
theorem scale_column_apply {α : Type} (s : S1024.Idx → α) (q : Fin 1024) (j : Fin 512) :
    broadcastTo S1024x512 (shapeCast S1024x1 s shapeCasts_S1024_S1024x1) broadcasts_S1024x1_S1024x512 (ix2 q j) = s (ix1 q) := by
  rw [broadcastTo_apply _ broadcasts_S1024x1_S1024x512 (ix2 q j) (ix2 q (0 : Fin 1)) (fun a => by
    match a with
    | ⟨0, _⟩ => show q.val = if (1024 : Nat) = 1 then 0 else q.val; rw [if_neg (by decide)]
    | ⟨1, _⟩ => show 0 = if (1 : Nat) = 1 then 0 else _; rw [if_pos rfl])]
  exact shapeCast_apply s shapeCasts_S1024_S1024x1 (ix2 q (0 : Fin 1)) (ix1 q) (by
    rw [Shape.rowMajor_val_one, Shape.rowMajor_val_two]
    show q.val = q.val * 1 + 0
    omega)

/-! ## The two stored values at an entry -/

/-- The accumulating store: what the accumulator held at (p, q), plus the sum over j of
    a (p, j) · (w (q, j) · s q). -/
theorem update_apply (a : Vec Ideal S1024x512 .f32) (w : Vec Ideal S1024x512 .i32) (s : Vec Ideal S1024 .f32)
    (acc : Vec Ideal S1024x1024 .f32) (p q : Fin 1024) :
    k0_pay2 (F := Ideal) a w s acc (ix2 p q)
      = acc (ix2 p q) + ∑ j : Fin 512, a (ix2 p j) * (FloatOps.sitofp (F := Ideal) .f32 (w (ix2 q j)) * s (ix1 q)) := by
  unfold k0_pay2
  rw [shapeCast_self, shapeCast_self, addf_apply, matmul_nt_apply]
  refine congrArg (acc (ix2 p q) + ·) (Finset.sum_congr rfl fun j _ => ?_)
  rw [truncf_apply, truncf_apply, mulf_apply, sitofp_apply, scale_column_apply]

/-- The reset store: zero at every entry. -/
theorem reset_apply (i : S1024x1024.Idx) : k0_pay1 (F := Ideal) i = 0 := by
  unfold k0_pay1
  rw [shapeCast_self]
  show Ideal.ofBits .f32 0x00000000#32 = 0
  exact Ideal.ofBits_zero_f32

end Cert.KernelIdeal.Payload

end
-- ==== Proof.Blocks.lean ====
/-
  Which entries of the arrays the kernel's blocks are.

  The grid has 4 × 4 × 8 points, visited in row-major order: point `t` has row-tile `t / 32`, column-tile
  `t / 8 % 4` and contraction step `t % 8`. At point `t`
    * the left factor's block is rows `1024 * (t / 32) + p`, columns `512 * (t % 8) + j` of the 4096 × 4096 left array;
    * the weights' block is rows `1024 * (t / 8 % 4) + q`, columns `512 * (t % 8) + j` of the weights;
    * the scales' block is entries `1024 * (t / 8 % 4) + q` of the scales.
  The left array is the input `x` with its two leading axes merged: row `2048 * b + s` is `x (b, s, ·)`. The weights
  and the scales reach the kernel as they were passed.
-/
import proofs.«163339_j489626271767_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The three input blocks at a grid point, -/
abbrev ablk (c : Dev nD) (t : Fin cfg0.N) : Vec F S1024x512 .f32 := iblk m c 0 t
abbrev wblk (c : Dev nD) (t : Fin cfg0.N) : Vec F S1024x512 .i32 := iblk m c 1 t
abbrev sblk (c : Dev nD) (t : Fin cfg0.N) : Vec F S1024 .f32 := iblk m c 2 t
/-- and the three arrays they are cut from, as the kernel finds them. -/
abbrev xarr (c : Dev nD) : Vec F S4096x4096 .f32 := V m c main_v0
abbrev warr (c : Dev nD) : Vec F S4096x4096 .i32 := V m c main_arg1
abbrev sarr (c : Dev nD) : Vec F S4096 .f32 := V m c main_arg2

/-- Each window's block number along each of its axes, at every grid point. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 1) = t.val / 8 % 4
    ∧ win0_3.index t (0 : Fin 2) = t.val / 32 ∧ win0_3.index t (1 : Fin 2) = t.val / 8 % 4 :=
  (by decide +kernel : ∀ t : Fin grid0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 1) = t.val / 8 % 4
    ∧ win0_3.index t (0 : Fin 2) = t.val / 32 ∧ win0_3.index t (1 : Fin 2) = t.val / 8 % 4)

/-- The left factor's block at point `t`, entry (p, j): row `1024 * (t / 32) + p`, column `512 * (t % 8) + j`. -/
theorem ablk_apply (c : Dev nD) (t : Fin cfg0.N) (p : Fin 1024) (j : Fin 512) (r k : Fin 4096)
    (hr : r.val = 1024 * (t.val / 32) + p.val) (hk : k.val = 512 * (t.val % 8) + j.val) :
    ablk m c t (ix2 p j) = xarr m c (ix2 r k) := by
  unfold ablk iblk
  rw [View.read_apply]
  show V m c main_v0 _ = V m c main_v0 _
  refine congrArg (V m c main_v0) (funext fun a => Fin.ext ?_)
  match a with
  | ⟨0, _⟩ => show win0_0.index t 0 * 1024 + 1 * p.val = r.val; rw [(index_facts t).1, hr]; omega
  | ⟨1, _⟩ => show win0_0.index t 1 * 512 + 1 * j.val = k.val; rw [(index_facts t).2.1, hk]; omega

/-- The weights' block at point `t`, entry (q, j): row `1024 * (t / 8 % 4) + q`, column `512 * (t % 8) + j`. -/
theorem wblk_apply (c : Dev nD) (t : Fin cfg0.N) (q : Fin 1024) (j : Fin 512) (n k : Fin 4096)
    (hn : n.val = 1024 * (t.val / 8 % 4) + q.val) (hk : k.val = 512 * (t.val % 8) + j.val) :
    wblk m c t (ix2 q j) = warr m c (ix2 n k) := by
  unfold wblk iblk
  rw [View.read_apply]
  show V m c main_arg1 _ = V m c main_arg1 _
  refine congrArg (V m c main_arg1) (funext fun a => Fin.ext ?_)
  match a with
  | ⟨0, _⟩ => show win0_1.index t 0 * 1024 + 1 * q.val = n.val; rw [(index_facts t).2.2.1, hn]; omega
  | ⟨1, _⟩ => show win0_1.index t 1 * 512 + 1 * j.val = k.val; rw [(index_facts t).2.2.2.1, hk]; omega

/-- The scales' block at point `t`, entry q: entry `1024 * (t / 8 % 4) + q`. -/
theorem sblk_apply (c : Dev nD) (t : Fin cfg0.N) (q : Fin 1024) (n : Fin 4096)
    (hn : n.val = 1024 * (t.val / 8 % 4) + q.val) :
    sblk m c t (ix1 q) = sarr m c (ix1 n) := by
  unfold sblk iblk
  rw [View.read_apply]
  show V m c main_arg2 _ = V m c main_arg2 _
  refine congrArg (V m c main_arg2) (funext fun a => Fin.ext ?_)
  match a with
  | ⟨0, _⟩ => show win0_2.index t 0 * 1024 + 1 * q.val = n.val; rw [(index_facts t).2.2.2.2.1, hn]; omega

/-! ## The arrays in terms of the program's arguments -/

/-- The left array is `x` with its two leading axes merged, -/
theorem xarr_eq (c : Dev nD) :
    xarr m c = shapeCast S4096x4096 (m ((c : Thread nD τ).loc main_arg0)) shapeCasts_S2x2048x4096_S4096x4096 := by
  show StableHlo.after hostOps0 (fun b => m (c, b)) (Proc.devRef .tc main_v0) = _
  after_results
  rfl

/-- so its row `2048 * b + s` is `x (b, s, ·)`. -/
theorem xarr_apply (c : Dev nD) (b : Fin 2) (s : Fin 2048) (r k : Fin 4096) (hr : r.val = 2048 * b.val + s.val) :
    xarr m c (ix2 r k) = m ((c : Thread nD τ).loc main_arg0) (ix3 b s k) := by
  rw [xarr_eq]
  exact shapeCast_apply _ shapeCasts_S2x2048x4096_S4096x4096 (ix2 r k) (ix3 b s k) (by
    rw [Shape.rowMajor_val_three, Shape.rowMajor_val_two]
    show (b.val * 2048 + s.val) * 4096 + k.val = r.val * 4096 + k.val
    rw [hr]; ring)

/-- The weights and the scales are the program's own arguments. -/
theorem warr_eq (c : Dev nD) : warr m c = m ((c : Thread nD τ).loc main_arg1) := V_main_arg1 m c
theorem sarr_eq (c : Dev nD) : sarr m c = m ((c : Thread nD τ).loc main_arg2) := V_main_arg2 m c

end Cert.KernelIdeal.Blocks

end
-- ==== Proof.BlockSum.lean ====
/-
  A sum over 4096 consecutive positions, taken as eight runs of 512.

  Position `k` of 4096 is `512 * s + j` for exactly one run `s < 8` and one offset `j < 512`. Since addition in a
  commutative monoid may be regrouped freely, the sum of `f` over all positions is the sum over the runs of the sums
  within each run. No property of the summands is used.
-/
import Mathlib.Algebra.BigOperators.Fin
import Mathlib.Logic.Equiv.Fin.Basic

open scoped BigOperators

namespace Cert.DequantMatmul

/-- The sum of `f` over the positions below 4096 is the sum, over the eight runs `s`, of the sum over the 512
    offsets `j` of `f (512 * s + j)`. -/
theorem sum_runs {β : Type*} [AddCommMonoid β] (f : ℕ → β) :
    ∑ s ∈ Finset.range 8, ∑ j : Fin 512, f (512 * s + j.val) = ∑ k : Fin 4096, f k.val := by
  rw [← Fin.sum_univ_eq_sum_range (fun s => ∑ j : Fin 512, f (512 * s + j.val)) 8]
  rw [← Fintype.sum_prod_type' (fun (s : Fin 8) (j : Fin 512) => f (512 * s.val + j.val))]
  rw [← Equiv.sum_comp (finProdFinEquiv (m := 8) (n := 512)) (fun k : Fin (8 * 512) => f k.val)]
  refine Finset.sum_congr rfl fun x _ => ?_
  obtain ⟨s, j⟩ := x
  show f (512 * s.val + j.val) = f ((finProdFinEquiv (s, j)).val)
  rw [finProdFinEquiv_apply_val, Nat.add_comm]

end Cert.DequantMatmul
-- ==== Proof.Accum.lean ====
/-
  The accumulator after each grid point, over the extended reals.

  Along the last grid axis the body first resets the accumulator and then, eight times, adds one product of blocks to
  it. So after step `s` of the run that starts at point `b` (a multiple of 8) the accumulator's entry (p, q) is
  zero plus the sum of the addends of points `b … b + s`, where the addend of point `n` at (p, q) is the sum over the
  512 positions `j` of that point's contraction range of

      x₂ (1024 * (n / 32) + p, 512 * (n % 8) + j) · (w (1024 * (n / 8 % 4) + q, 512 * (n % 8) + j) · scale (1024 * (n / 8 % 4) + q)).

  Within one run the row tile and the column tile do not move and the contraction ranges are the eight consecutive
  runs of 512 positions, so after the run's last step the entry is zero plus the sum over all 4096 positions: one entry
  of the product of x₂ with the transposed, scaled weights. The last step also copies the accumulator into the output
  block. Only regrouping of a finite sum is used, which the extended reals allow without any condition on the terms.
-/
import proofs.«163339_j489626271767_1_alg».proof.Proof.Cases
import proofs.«163339_j489626271767_1_alg».proof.Proof.Payload
import proofs.«163339_j489626271767_1_alg».proof.Proof.Blocks
import proofs.«163339_j489626271767_1_alg».proof.Proof.BlockSum

noncomputable section

open scoped BigOperators

namespace Cert.KernelIdeal.Accum

open Cert.KernelIdeal Cert.KernelIdeal.Gen Cert.KernelIdeal.Blocks Idealize.ShloMosaic Idealize.ShloMosaic.TcCoe Idealize.SL.Sem
open Idealize.ShloMosaic.ValueIdx

variable (m : (ℓ : Loc nD τ sig) → Buf (Elt Ideal) ℓ)

/-! ## One product term, one entry of the whole product -/

/-- The product of left-array entry (r, k) with the scaled weight (n, k); zero outside the arrays, so that the term
    is defined for all naturals. -/
def term (c : Dev nD) (r n k : ℕ) : EReal :=
  if h : r < 4096 ∧ n < 4096 ∧ k < 4096 then
    xarr m c (ix2 ⟨r, h.1⟩ ⟨k, h.2.2⟩)
      * (FloatOps.sitofp (F := Ideal) .f32 (warr m c (ix2 ⟨n, h.2.1⟩ ⟨k, h.2.2⟩)) * sarr m c (ix1 ⟨n, h.2.1⟩))
  else 0

/-- Entry (r, n) of the product of the left array with the transposed, scaled weights. -/
def entry (c : Dev nD) (r n : Fin 4096) : EReal :=
  ∑ k : Fin 4096, xarr m c (ix2 r k) * (FloatOps.sitofp (F := Ideal) .f32 (warr m c (ix2 n k)) * sarr m c (ix1 n))

theorem sum_term (c : Dev nD) (r n : Fin 4096) : ∑ k : Fin 4096, term m c r.val n.val k.val = entry m c r n :=
  Finset.sum_congr rfl fun k _ => by
    unfold term
    rw [dif_pos ⟨r.isLt, n.isLt, k.isLt⟩]

/-! ## What a point adds -/

/-- What point `n` adds to the accumulator's entry `i`. -/
def addend (c : Dev nD) (n : ℕ) (i : S1024x1024.Idx) : EReal :=
  ∑ j : Fin 512, term m c (1024 * (n / 32) + (i 0).val) (1024 * (n / 8 % 4) + (i 1).val) (512 * (n % 8) + j.val)

/-- The body's update at point `n`, as a function of what the accumulator held. -/
abbrev update (c : Dev nD) (n : ℕ) (h : n < cfg0.N) (acc : Vec Ideal S1024x1024 .f32) : Vec Ideal S1024x1024 .f32 :=
  k0_pay2 (F := Ideal) (ablk m c ⟨n, h⟩) (wblk m c ⟨n, h⟩) (sblk m c ⟨n, h⟩) acc

/-- The update at point `n` adds that point's addend, entry by entry. -/
theorem update_apply (c : Dev nD) (n : ℕ) (h : n < cfg0.N) (acc : Vec Ideal S1024x1024 .f32) (i : S1024x1024.Idx) :
    update m c n h acc i = acc i + addend m c n i := by
  have hN : n < 128 := lt_of_lt_of_eq h (show cfg0.N = 128 from N_0)
  obtain ⟨p, q, rfl⟩ : ∃ (p q : Fin 1024), i = ix2 p q := ⟨i 0, i 1, eq_ix2 i⟩
  unfold update
  rw [Payload.update_apply]
  refine congrArg (acc (ix2 p q) + ·) (Finset.sum_congr rfl fun j _ => ?_)
  have hp : p.val < 1024 := p.isLt
  have hq : q.val < 1024 := q.isLt
  have hj : j.val < 512 := j.isLt
  have hr : 1024 * (n / 32) + p.val < 4096 := by omega
  have hn : 1024 * (n / 8 % 4) + q.val < 4096 := by omega
  have hk : 512 * (n % 8) + j.val < 4096 := by omega
  show _ = term m c (1024 * (n / 32) + p.val) (1024 * (n / 8 % 4) + q.val) (512 * (n % 8) + j.val)
  unfold term
  rw [dif_pos ⟨hr, hn, hk⟩,
    ablk_apply m c ⟨n, h⟩ p j ⟨_, hr⟩ ⟨_, hk⟩ rfl rfl,
    wblk_apply m c ⟨n, h⟩ q j ⟨_, hn⟩ ⟨_, hk⟩ rfl rfl,
    sblk_apply m c ⟨n, h⟩ q ⟨_, hn⟩ rfl]

/-! ## The accumulator point by point -/

/-- What the accumulator holds after point `n`. -/
abbrev accAfter (c : Dev nD) (n : ℕ) (h : n < cfg0.N) : Vec Ideal S1024x1024 .f32 := (outsAt0 m c n h).2

/-- At the first step of a run of eight it is the update of the zero block. -/
theorem accAfter_first (c : Dev nD) (n : ℕ) (h : n < cfg0.N) (h0 : n % 8 = 0) :
    accAfter m c n h = update m c n h (k0_pay1 (F := Ideal)) := by
  have h7 : ¬(⟨n, h⟩ : Fin cfg0.N).val % 8 = 7 := by dsimp only; omega
  show (outsAt0 m c n h).2 = _
  rw [outsAt0_A m c ⟨n, h⟩ h0 h7]
  dsimp only
  exact Cases.acc_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)
    ((hcond0_0 ⟨n, h⟩).mpr h0) (fun hh => h7 ((hcond0_1 ⟨n, h⟩).mp hh)) (iblk m c 0 ⟨n, h⟩) (iblk m c 1 ⟨n, h⟩) (iblk m c 2 ⟨n, h⟩)

/-- At every other step it is the update of what the point before left. -/
theorem accAfter_step (c : Dev nD) (n : ℕ) (h : n + 1 < cfg0.N) (h0 : ¬(n + 1) % 8 = 0) :
    accAfter m c (n + 1) h = update m c (n + 1) h (accAfter m c n (Nat.lt_of_succ_lt h)) := by
  show (outsAt0 m c (n + 1) h).2 = _
  by_cases h7 : (n + 1) % 8 = 7
  · rw [outsAt0_C m c ⟨n + 1, h⟩ h0 h7]
    dsimp only
    exact Cases.acc_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
      (fun hh => h0 ((hcond0_0 ⟨n + 1, h⟩).mp hh)) ((hcond0_1 ⟨n + 1, h⟩).mpr h7) (iblk m c 0 ⟨n + 1, h⟩) (iblk m c 1 ⟨n + 1, h⟩) (iblk m c 2 ⟨n + 1, h⟩)
      (outsAt0 m c n (Nat.lt_of_succ_lt h)).2
  · rw [outsAt0_B m c ⟨n + 1, h⟩ h0 h7]
    dsimp only
    exact Cases.acc_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
      (fun hh => h0 ((hcond0_0 ⟨n + 1, h⟩).mp hh)) (fun hh => h7 ((hcond0_1 ⟨n + 1, h⟩).mp hh)) (iblk m c 0 ⟨n + 1, h⟩) (iblk m c 1 ⟨n + 1, h⟩) (iblk m c 2 ⟨n + 1, h⟩)
      (outsAt0 m c n (Nat.lt_of_succ_lt h)).2

/-- So after point `t` it is the fold of the updates over the run `8 * (t / 8) … t`, started from the zero block. -/
theorem accAfter_eq_fold (c : Dev nD) (t : ℕ) (ht : t < cfg0.N) (h' : 8 * (t / 8) + t % 8 < cfg0.N) :
    accAfter m c t ht
      = Pipeline.accAt (fun n h => update m c n h (k0_pay1 (F := Ideal))) (update m c) (8 * (t / 8)) (t % 8) h' :=
  Pipeline.eq_accAt_of_mod (accAfter m c) 8 (fun n h => update m c n h (k0_pay1 (F := Ideal))) (update m c)
    (accAfter_first m c) (accAfter_step m c) (by decide) t ht h'

/-- The fold at an entry: zero plus the addends of the run's points so far. -/
theorem fold_apply (c : Dev nD) (b j : ℕ) (hj : j ≤ 7) (h : b + j < cfg0.N) (i : S1024x1024.Idx) :
    Pipeline.accAt (fun n h => update m c n h (k0_pay1 (F := Ideal))) (update m c) b j h i
      = 0 + ∑ s ∈ Finset.range (j + 1), addend m c (b + s) i :=
  Pipeline.accAt_add_apply (fun n h => update m c n h (k0_pay1 (F := Ideal))) (update m c) (fun _ => (0 : EReal)) (addend m c) b 7
    (fun hb i => by
      show update m c b hb (k0_pay1 (F := Ideal)) i = 0 + addend m c b i
      rw [update_apply, Payload.reset_apply])
    (fun n hn acc i _ _ => update_apply m c n hn acc i) j hj h i

/-! ## The last step of a run -/

/-- Within the run of block `B` the tiles stay put and step `s` contracts over positions `512 * s …`. -/
theorem addend_run (c : Dev nD) (B s : ℕ) (hs : s < 8) (p q : Fin 1024) :
    addend m c (8 * B + s) (ix2 p q)
      = ∑ j : Fin 512, term m c (1024 * (B / 4) + p.val) (1024 * (B % 4) + q.val) (512 * s + j.val) := by
  unfold addend
  have e1 : (8 * B + s) / 32 = B / 4 := by omega
  have e2 : (8 * B + s) / 8 % 4 = B % 4 := by omega
  have e3 : (8 * B + s) % 8 = s := by omega
  rw [e1, e2, e3]

/-- After the last step of a run the accumulator's entry (p, q) is one entry of the whole product. -/
theorem accAfter_last (c : Dev nD) (t : ℕ) (ht : t < cfg0.N) (h7 : t % 8 = 7) (p q : Fin 1024) (r n : Fin 4096)
    (hr : r.val = 1024 * (t / 32) + p.val) (hn : n.val = 1024 * (t / 8 % 4) + q.val) :
    accAfter m c t ht (ix2 p q) = entry m c r n := by
  have h' : 8 * (t / 8) + t % 8 < cfg0.N := by rw [Nat.div_add_mod]; exact ht
  rw [accAfter_eq_fold m c t ht h', fold_apply m c _ _ (by omega) h', h7, zero_add]
  rw [Finset.sum_congr rfl fun s hs => addend_run m c (t / 8) s (Finset.mem_range.mp hs) p q]
  rw [Cert.DequantMatmul.sum_runs (fun k => term m c (1024 * (t / 8 / 4) + p.val) (1024 * (t / 8 % 4) + q.val) k)]
  rw [← sum_term m c r n, hr, hn, Nat.div_div_eq_div_mul]

/-- The last step copies the accumulator into the output block. -/
theorem out_last (c : Dev nD) (t : Fin cfg0.N) (h7 : t.val % 8 = 7) :
    (outsAt0 m c t.val t.isLt).1 = accAfter m c t.val t.isLt := by
  have h0 : ¬t.val % 8 = 0 := by omega
  show _ = (outsAt0 m c t.val t.isLt).2
  rw [outsAt0_C m c t h0 h7]
  dsimp only
  exact (Cases.out_last (F := Ideal) c (grid0.coords t) (ms0_0 t) (hs0_0 t) (ms0_1 t) (hs0_1 t) (ms0_2 t) (hs0_2 t) (ms0_3 t) (hs0_3 t) scM0_0 (Memref.isWhole_whole _)
      (fun hh => h0 ((hcond0_0 t).mp hh)) ((hcond0_1 t).mpr h7) (iblk m c 0 t) (iblk m c 1 t) (iblk m c 2 t)
      (outsAt0 m c (t.val - 1) (Nat.lt_of_le_of_lt (Nat.sub_le _ _) t.isLt)).2).trans
    (Cases.acc_last (F := Ideal) c (grid0.coords t) (ms0_0 t) (hs0_0 t) (ms0_1 t) (hs0_1 t) (ms0_2 t) (hs0_2 t) (ms0_3 t) (hs0_3 t) scM0_0 (Memref.isWhole_whole _)
      (fun hh => h0 ((hcond0_0 t).mp hh)) ((hcond0_1 t).mpr h7) (iblk m c 0 t) (iblk m c 1 t) (iblk m c 2 t)
      (outsAt0 m c (t.val - 1) (Nat.lt_of_le_of_lt (Nat.sub_le _ _) t.isLt)).2).symm

end Cert.KernelIdeal.Accum

end
-- ==== Proof.Spec.lean ====
/-
  The function both programs compute: a linear layer with integer weights and one scale per output channel.

  For an input `x` of shape 2 × 2048 × 4096, integer weights `w` of shape 4096 × 4096 (output channel × input channel)
  and scales `sc` of length 4096, the result at (b, s, o) is the sum over the input channels k of

      x (b, s, k) · (w (o, k) · sc o),

  the weight read as a real number. It is stated over the extended reals, index by index.
-/
import Idealize.ShloMosaic.PureOps.Ideal
import Idealize.ShloMosaic.Lib.ValueIdx

noncomputable section

open scoped BigOperators

namespace Cert.DequantMatmul

open Idealize.ShloMosaic Idealize.ShloMosaic.ValueIdx

/-- The dequantised linear layer, entry by entry. -/
def linear (x : Vec Ideal ⟨3, ![2, 2048, 4096]⟩ .f32) (w : Vec Ideal ⟨2, ![4096, 4096]⟩ .i32)
    (sc : Vec Ideal ⟨1, ![4096]⟩ .f32) : Vec Ideal ⟨3, ![2, 2048, 4096]⟩ .f32 :=
  fun i => ∑ k : Fin 4096,
    x (ix3 ⟨(i 0).val, (i 0).isLt⟩ ⟨(i 1).val, (i 1).isLt⟩ k)
      * (FloatOps.sitofp (F := Ideal) .f32 (w (ix2 ⟨(i 2).val, (i 2).isLt⟩ k)) * sc (ix1 ⟨(i 2).val, (i 2).isLt⟩))

theorem linear_apply (x : Vec Ideal ⟨3, ![2, 2048, 4096]⟩ .f32) (w : Vec Ideal ⟨2, ![4096, 4096]⟩ .i32)
    (sc : Vec Ideal ⟨1, ![4096]⟩ .f32) (b : Fin 2) (s : Fin 2048) (o : Fin 4096) :
    linear x w sc (ix3 b s o)
      = ∑ k : Fin 4096, x (ix3 b s k) * (FloatOps.sitofp (F := Ideal) .f32 (w (ix2 o k)) * sc (ix1 o)) := rfl

end Cert.DequantMatmul

end
-- ==== Proof.Result.lean ====
/-
  The kernel's result over the extended reals: the dequantised linear layer of its arguments.

  The output window's block at point `t` is rows `1024 * (t / 32) …`, columns `1024 * (t / 8 % 4) …` of the
  4096 × 4096 result array, and it is written back exactly at the last step of each run of eight points, when it holds
  the finished accumulator. The sixteen runs' blocks tile the array, so the array ends as the product of the left array
  with the transposed, scaled weights. The program then splits the row axis back into (b, s), and the left array was
  `x` with those two axes merged, so entry (b, s, o) of the result is the sum over k of x (b, s, k) · (w (o, k) · sc o).
-/
import proofs.«163339_j489626271767_1_alg».proof.Proof.Accum
import proofs.«163339_j489626271767_1_alg».proof.Proof.Spec
import Idealize.ShloMosaic.Lib.StableHlo.Run

noncomputable section

open scoped BigOperators

namespace Cert.KernelIdeal.Result

open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The product of the left array with the transposed, scaled weights, as one 4096 × 4096 array. -/
def prod (c : Dev nD) : Vec Ideal S4096x4096 .f32 :=
  fun i => Accum.entry m c ⟨(i 0).val, (i 0).isLt⟩ ⟨(i 1).val, (i 1).isLt⟩

/-- The finished accumulator of a run, entry by entry, is the run's block of the product. -/
theorem block_entry (c : Dev nD) (t : Fin cfg0.N) (h7 : t.val % 8 = 7) (y : S1024x1024.Idx) :
    Accum.accAfter m c t.val t.isLt y = prod m c (((cfg0.win 3).blk t).view.emb y) := by
  obtain ⟨p, q, rfl⟩ : ∃ (p q : Fin 1024), y = ix2 p q := ⟨y 0, y 1, eq_ix2 y⟩
  have e0 : ((((cfg0.win 3).blk t).view.emb (ix2 p q)) 0).val = 1024 * (t.val / 32) + p.val := by
    show win0_3.index t 0 * 1024 + 1 * p.val = _
    rw [(index_facts t).2.2.2.2.2.1]; omega
  have e1 : ((((cfg0.win 3).blk t).view.emb (ix2 p q)) 1).val = 1024 * (t.val / 8 % 4) + q.val := by
    show win0_3.index t 1 * 1024 + 1 * q.val = _
    rw [(index_facts t).2.2.2.2.2.2]; omega
  unfold prod
  exact Accum.accAfter_last m c t.val t.isLt h7 p q ⟨_, _⟩ ⟨_, _⟩ e0 e1

/-- What a writing point writes back is its block of the product. -/
theorem flushed_eq (c : Dev nD) (t : Fin cfg0.N) (hf : (cfg0.win 3).flush t = true) :
    (dats m 0 c).flushed 3 t = ((cfg0.win 3).blk t).view.read (Elt Ideal) (prod m c) := by
  have h7 : t.val % 8 = 7 := (flush0_3 t).mp hf
  show (cfg0.win 3).cut (grid0.coords t) ((dats m 0 c).after 3 t) = _
  rw [after0_3, Accum.out_last m c t h7]
  funext y
  rw [View.read_apply]
  exact block_entry m c t h7 y

/-- An entry of the array lies in point `t`'s block iff each coordinate lies in the block's range. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every entry of the array is in the block of the last point of some run. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 128 := N_0
  have ht : ((i 0).val / 1024 * 4 + (i 1).val / 1024) * 8 + 7 < cfg0.N := by rw [hN]; omega
  refine ⟨⟨((i 0).val / 1024 * 4 + (i 1).val / 1024) * 8 + 7, ht⟩, (flush0_3 _).mpr (by dsimp only; omega), ?_⟩
  rw [mem_blk]
  intro a
  match a with
  | ⟨0, _⟩ =>
    show win0_3.index ⟨_, ht⟩ 0 * 1024 ≤ (i 0).val ∧ (i 0).val < win0_3.index ⟨_, ht⟩ 0 * 1024 + 1024
    rw [(index_facts ⟨_, ht⟩).2.2.2.2.2.1]; dsimp only; omega
  | ⟨1, _⟩ =>
    show win0_3.index ⟨_, ht⟩ 1 * 1024 ≤ (i 1).val ∧ (i 1).val < win0_3.index ⟨_, ht⟩ 1 * 1024 + 1024
    rw [(index_facts ⟨_, ht⟩).2.2.2.2.2.2]; dsimp only; omega

/-- So the result array of the kernel call ends as the product. -/
theorem final (c : Dev nD) : (dats m 0 c).arrAt 3 cfg0.N = prod m c :=
  (dats m 0 c).arrAt_eq_of_cover 3 (prod m c) (flushed_eq m c) covered

/-- The program's result: the product with its row axis split back into (b, s). -/
def result (c : Dev nD) : Vec Ideal S2x2048x4096 .f32 :=
  shapeCast S2x2048x4096 (prod m c) shapeCasts_S4096x4096_S2x2048x4096

/-- The operations after the kernel call leave that in the program's result buffer. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  unfold result
  exact congrArg (fun a => shapeCast S2x2048x4096 a shapeCasts_S4096x4096_S2x2048x4096)
    ((Pipeline.withArrays_arr spec0 launch0.win.arr_inj c _ _ 3).trans (final m c))

/-- The result is the dequantised linear layer of the three arguments. -/
theorem result_eq (c : Dev nD) :
    result m c = Cert.DequantMatmul.linear (m ((c : Thread nD τ).loc main_arg0)) (m ((c : Thread nD τ).loc main_arg1))
      (m ((c : Thread nD τ).loc main_arg2)) := by
  funext i
  obtain ⟨b, s, o, rfl⟩ : ∃ (b : Fin 2) (s : Fin 2048) (o : Fin 4096), i = ix3 b s o := ⟨i 0, i 1, i 2, eq_ix3 i⟩
  have hb : b.val < 2 := b.isLt
  have hs : s.val < 2048 := s.isLt
  have hr : 2048 * b.val + s.val < 4096 := by omega
  unfold result
  rw [shapeCast_apply (prod m c) shapeCasts_S4096x4096_S2x2048x4096 (ix3 b s o) (ix2 (⟨2048 * b.val + s.val, hr⟩ : Fin 4096) o) (by
    rw [Shape.rowMajor_val_three, Shape.rowMajor_val_two]
    show (2048 * b.val + s.val) * 4096 + o.val = (b.val * 2048 + s.val) * 4096 + o.val
    ring)]
  rw [Cert.DequantMatmul.linear_apply]
  show Accum.entry m c ⟨2048 * b.val + s.val, hr⟩ o = _
  unfold Accum.entry
  refine Finset.sum_congr rfl fun k _ => ?_
  rw [xarr_apply m c b s ⟨2048 * b.val + s.val, hr⟩ k rfl, warr_eq, sarr_eq]

/-- The run, read: the result buffer at the dequantised linear layer of the arguments, the arguments unchanged. -/
theorem run : θ_run defs (onTc (τ := τ) (main (F := Ideal))) ⟨m, fun _ => 0, ρ⟩ fun r => ∀ c : Dev nD,
      r.2.mem ((c.tc : Thread nD τ).loc main_v2) = Cert.DequantMatmul.linear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v2 (Pipeline.mem_restRefs_of main_v2 (by decide) (by decide))).trans (tail_eq m c)).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.RefValue.lean ====
/-
  The reference computes the dequantised linear layer.

  The reference converts the weights to reals, repeats scale o along row o, multiplies, and contracts the input's
  last axis with the weights' last axis. Read at (b, s, o) that is the sum over k of x (b, s, k) · (w (o, k) · sc o).
-/
import proofs.«163339_j489626271767_1_alg».proof.Proof.Gen.ReferenceIdeal.Read
import proofs.«163339_j489626271767_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result, as a function of its three arguments, is the dequantised linear layer. -/
theorem result_eq (x : Vec Ideal S2x2048x4096 .f32) (w : Vec Ideal S4096x4096 .i32) (sc : Vec Ideal S4096 .f32) :
    val_main_v4 (F := Ideal) x w sc = Cert.DequantMatmul.linear x w sc := by
  funext i
  obtain ⟨b, s, o, rfl⟩ : ∃ (b : Fin 2) (s : Fin 2048) (o : Fin 4096), i = ix3 b s o := ⟨i 0, i 1, i 2, eq_ix3 i⟩
  rw [val_main_v4_apply, Cert.DequantMatmul.linear_apply]
  refine Finset.sum_congr rfl fun k _ => ?_
  have el : lidx_main_v4 (ix3 b s o) k = ix3 b s k := funext fun a => Fin.ext (by
    match a with
    | ⟨0, _⟩ => rfl
    | ⟨1, _⟩ => rfl
    | ⟨2, _⟩ => rfl)
  have er : ridx_main_v4 (ix3 b s o) k = ix2 o k := funext fun a => Fin.ext (by
    match a with
    | ⟨0, _⟩ => rfl
    | ⟨1, _⟩ => rfl)
  have e1 : idx_main_v1 (idx_main_v2 (ix2 o k)) = ix1 o := funext fun a => Fin.ext (by
    match a with
    | ⟨0, _⟩ => rfl)
  rw [el, er, val_main_v3_apply, val_main_v0_apply, val_main_v2_apply, val_main_v1_apply, e1]
  rfl

end Cert.ReferenceIdeal.RefValue

end
-- ==== Proof.lean ====
/-
  A linear layer with integer weights and one scale per output channel, tiled over a 4 × 4 × 8 grid, against the
  one-line reference `einsum("bsi,oi->bso", x, w · sc[:, None])`.

  The kernel merges the two leading axes of `x`, and for each 1024 × 1024 tile of the 4096 × 4096 result runs eight
  steps along the contraction axis: it resets an accumulator, and at each step adds the product of a 1024 × 512 block
  of `x` with the transposed 1024 × 512 block of weights, the weights converted to reals and multiplied by their
  row's scale (the roundings to a narrower float format in between are the identity over the extended reals). After the
  eighth step it writes the tile out; finally the row axis is split back into (b, s). The reference converts and scales
  the whole weight array and contracts once.

  Over the extended reals both results are, at (b, s, o), the sum over k of x (b, s, k) · (w (o, k) · sc o): the kernel's
  is that sum taken as eight runs of 512 terms on top of a zero, and a finite sum may be regrouped freely. No cancellation
  or distribution is used, so the proof never needs the inputs to be finite. The pass that idealises the kernel rewrote
  nothing, so there is nothing to preserve. The kernel's two frames are the generated ones; the reference's frame is its
  generated run with the result dropped.
-/
import proofs.«163339_j489626271767_1_alg».proof.Defs
import proofs.«163339_j489626271767_1_alg».proof.Proof.Gen.Kernel
import proofs.«163339_j489626271767_1_alg».proof.Proof.Gen.Kernel.Frame
import proofs.«163339_j489626271767_1_alg».proof.Proof.Gen.KernelIdeal
import proofs.«163339_j489626271767_1_alg».proof.Proof.Gen.KernelIdeal.Frame
import proofs.«163339_j489626271767_1_alg».proof.Proof.Gen.ReferenceIdeal
import proofs.«163339_j489626271767_1_alg».proof.Proof.Gen.ReferenceIdeal.Run
import proofs.«163339_j489626271767_1_alg».proof.Proof.Gen.Pre_finite_inputs
import proofs.«163339_j489626271767_1_alg».proof.Proof.Result
import proofs.«163339_j489626271767_1_alg».proof.Proof.RefValue
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does its idealisation. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the three arguments both programs end with the dequantised linear layer of them. -/
theorem algebraic : Cert.algebraic_KernelIdeal_ReferenceIdeal := by
  intro m ρ m' ρ' _ hagree
  refine ⟨fun c => Cert.DequantMatmul.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
